-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S800000x32 : Shape := ⟨2, ![800000, 32]⟩
abbrev S800000 : Shape := ⟨1, ![800000]⟩
abbrev S160x64 : Shape := ⟨2, ![160, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg9 : FVec F S64x32 .f32) (main_arg10 : FVec F S32 .f32) (main_arg11 : FVec F S32x32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  main_v48

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x32 .f32) (main_v13 : IVec S_ 1) (main_v16 : IVec S160x64 1) : IVec S_ 1 :=
  let main_c_5 : IVec S_ 1 := constantI S_ 1 1#1
  let main_v17 : IVec S_ 1 := (fun x v => Host.reduce IntOp.andi x v reducesTo_S160x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S100000x32 .f32) (main_arg1 : FVec F S100000x32 .f32) (main_arg2 : FVec F S800000x32 .f32) (main_arg3 : IVec S800000 32) (main_arg4 : IVec S800000 32) (main_arg5 : FVec F S160x64 .f32) (main_arg6 : FVec F S64 .f32) (main_arg7 : FVec F S64x64 .f32) (main_arg8 : FVec F S64 .f32) (main_arg9 : FVec F S64x32 .f32) (main_arg10 : FVec F S32 .f32) (main_arg11 : FVec F S32x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S800000x32 .f32 := Host.absf main_arg2
  let main_cst_2 : FVec F S_ .f32 := constant S_ .f32 0x7F800000#32
  let main_v10 : FVec F S800000x32 .f32 := broadcastInDim S800000x32 ![] bcast_S_S800000x32 main_cst_2
  let main_v11 : IVec S800000x32 1 := cmpf .olt main_v9 main_v10
  let main_c_3 : IVec S_ 1 := constantI S_ 1 1#1
  let main_v12 : IVec S_ 1 := (fun x v => Host.reduce IntOp.andi x v reducesTo_S800000x32_S_d0_1 h_S_) main_v11 main_c_3
  let main_v13 : IVec S_ 1 := andi main_v8 main_v12
  let main_v14 : FVec F S160x64 .f32 := Host.absf main_arg5
  let main_cst_4 : FVec F S_ .f32 := constant S_ .f32 0x7F800000#32
  let main_v15 : FVec F S160x64 .f32 := broadcastInDim S160x64 ![] bcast_S_S160x64 main_cst_4
  let main_v16 : IVec S160x64 1 := cmpf .olt main_v14 main_v15
  fn_part1 (F := F) main_arg6 main_arg7 main_arg8 main_arg9 main_arg10 main_arg11 main_v13 main_v16
-- ==== Kernel.lean ====
abbrev S100000x32 : Shape := ⟨2, ![100000, 32]⟩
abbrev S800000x32 : Shape := ⟨2, ![800000, 32]⟩
abbrev S800000 : Shape := ⟨1, ![800000]⟩
abbrev S160x64 : Shape := ⟨2, ![160, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S_ : Shape := ⟨0, ![]⟩
abbrev S800000x1 : Shape := ⟨2, ![800000, 1]⟩
abbrev S1x64 : Shape := ⟨2, ![1, 64]⟩
abbrev S1x32 : Shape := ⟨2, ![1, 32]⟩
abbrev S8000x32 : Shape := ⟨2, ![8000, 32]⟩
abbrev S8000x160 : Shape := ⟨2, ![8000, 160]⟩
abbrev S8000x64 : Shape := ⟨2, ![8000, 64]⟩
abbrev S10000x32 : Shape := ⟨2, ![10000, 32]⟩

abbrev nBuf : Space → Nat
  | .hbm => 57
  | .vmem => 25
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S800000x32, .f32⟩
  | .hbm, ⟨3, _⟩ => ⟨S800000, .i32⟩
  | .hbm, ⟨4, _⟩ => ⟨S800000, .i32⟩
  | .hbm, ⟨5, _⟩ => ⟨S160x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x32, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x32, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x32, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x32, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x32, .f32⟩
  | .hbm, ⟨48, _⟩ => ⟨S1x64, .f32⟩
  | .hbm, ⟨49, _⟩ => ⟨S1x64, .f32⟩
  | .hbm, ⟨50, _⟩ => ⟨S1x32, .f32⟩
  | .hbm, ⟨51, _⟩ => ⟨S800000x32, .f32⟩
  | .hbm, ⟨52, _⟩ => ⟨S_, .f32⟩
  | .hbm, ⟨53, _⟩ => ⟨S100000x32, .f32⟩
  | .hbm, ⟨54, _⟩ => ⟨S800000x1, .i32⟩
  | .hbm, ⟨55, _⟩ => ⟨S100000x32, .f32⟩
  | .hbm, ⟨56, _⟩ => ⟨S100000x32, .f32⟩
  | .local _ .vmem, ⟨0, _⟩ => ⟨S8000x32, .f32⟩
  | .local _ .vmem, ⟨1, _⟩ => ⟨S8000x32, .f32⟩
  | .local _ .vmem, ⟨2, _⟩ => ⟨S8000x32, .f32⟩
  | .local _ .vmem, ⟨3, _⟩ => ⟨S8000x32, .f32⟩
  | .local _ .vmem, ⟨4, _⟩ => ⟨S8000x32, .f32⟩
  | .local _ .vmem, ⟨5, _⟩ => ⟨S8000x32, .f32⟩
  | .local _ .vmem, ⟨6, _⟩ => ⟨S8000x32, .f32⟩
  | .local _ .vmem, ⟨7, _⟩ => ⟨S8000x32, .f32⟩
  | .local _ .vmem, ⟨8, _⟩ => ⟨S8000x32, .f32⟩
  | .local _ .vmem, ⟨9, _⟩ => ⟨S8000x32, .f32⟩
  | .local _ .vmem, ⟨10, _⟩ => ⟨S160x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x32, .f32⟩
  | .local _ .vmem, ⟨15, _⟩ => ⟨S1x32, .f32⟩
  | .local _ .vmem, ⟨16, _⟩ => ⟨S8000x32, .f32⟩
  | .local _ .vmem, ⟨17, _⟩ => ⟨S8000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x32, .f32⟩
  | .local _ .vmem, ⟨23, _⟩ => ⟨S10000x32, .f32⟩
  | .local _ .vmem, ⟨24, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg3_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem3_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S160x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  shapeCasts_S32_S1x32 : S32.ShapeCasts S1x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  concatenates_S8000x32_S8000x32_S8000x32_S8000x32_S8000x32_S8000x160_d1 : Shape.Concatenates [S8000x32, S8000x32, S8000x32, S8000x32, S8000x32] S8000x160 1
  inb_S160x64_S160x64_0_0 : ∀ a, (![0, 0] : Fin 2 → Nat) a + S160x64.size a ≤ S160x64.size a
  h_S160x64 : 0 < S160x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  bcast_S_S100000x32 : S_.BroadcastsInDim S100000x32 (![] : Fin 0 → Fin S100000x32.rank)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  gather_S100000x32_S800000x1_S800000x32_1_0_n_n_0_1_132_wf : GatherDims.WF S100000x32 S800000x1 S800000x32 [1] [0] [] [0] [] 1 ![1, 32]
  dot_S8000x160_S160x64_S8000x64_1_0_0_1_n_n_wf : DotDims.WF S8000x160 S160x64 S8000x64 [1] [0] [0] [1] [] []
  dot_S8000x64_S64x64_S8000x64_1_0_0_1_n_n_wf : DotDims.WF S8000x64 S64x64 S8000x64 [1] [0] [0] [1] [] []
  dot_S8000x64_S64x32_S8000x32_1_0_0_1_n_n_wf : DotDims.WF S8000x64 S64x32 S8000x32 [1] [0] [0] [1] [] []
  scatter_S100000x32_S800000x1_S800000x32_1_0_0_1_wf : ScatterDims.WF S100000x32 S800000x1 S800000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S800000x32.size a
  hwx0_0 : ∀ i : grid0.Coords, EltTy.bits .f32 = 32 ∨ (Rect.block (s := S800000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S800000x32.size a
  hwx0_1 : ∀ i : grid0.Coords, EltTy.bits .f32 = 32 ∨ (Rect.block (s := S800000x32) S8000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S800000x32.size a
  hwx0_2 : ∀ i : grid0.Coords, EltTy.bits .f32 = 32 ∨ (Rect.block (s := S800000x32) S8000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S800000x32.size a
  hwx0_3 : ∀ i : grid0.Coords, EltTy.bits .f32 = 32 ∨ (Rect.block (s := S800000x32) S8000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x32.size a ≤ S800000x32.size a
  hwx0_4 : ∀ i : grid0.Coords, EltTy.bits .f32 = 32 ∨ (Rect.block (s := S800000x32) S8000x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S160x64.size a ≤ S160x64.size a
  hwx0_5 : ∀ i : grid0.Coords, EltTy.bits .f32 = 32 ∨ (Rect.block (s := S160x64) S160x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x32.size a ≤ S64x32.size a
  hwx0_9 : ∀ i : grid0.Coords, EltTy.bits .f32 = 32 ∨ (Rect.block (s := S64x32) S64x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x32.size a ≤ S800000x32.size a
  hwx0_11 : ∀ i : grid0.Coords, EltTy.bits .f32 = 32 ∨ (Rect.block (s := S800000x32) S8000x32.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)

variable [Facts₀]

def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def dot_S8000x160_S160x64_S8000x64_1_0_0_1_n_n : DotDims S8000x160 S160x64 S8000x64 where
  lhsContracting := [1]
  rhsContracting := [0]
  lhsNonContracting := [0]
  rhsNonContracting := [1]
  lhsBatch := []
  rhsBatch := []
  wf := dot_S8000x160_S160x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_v20) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S8000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S8000x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S160x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S8000x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S800000x32 : Shape := ⟨2, ![800000, 32]⟩
abbrev S800000 : Shape := ⟨1, ![800000]⟩
abbrev S160x64 : Shape := ⟨2, ![160, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S_ : Shape := ⟨0, ![]⟩
abbrev S800000x1 : Shape := ⟨2, ![800000, 1]⟩
abbrev S800000x160 : Shape := ⟨2, ![800000, 160]⟩
abbrev S800000x64 : Shape := ⟨2, ![800000, 64]⟩
abbrev S1x64 : Shape := ⟨2, ![1, 64]⟩
abbrev S1x32 : Shape := ⟨2, ![1, 32]⟩

abbrev nBuf : Space → Nat
  | .hbm => 78
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S800000x32, .f32⟩
  | .hbm, ⟨3, _⟩ => ⟨S800000, .i32⟩
  | .hbm, ⟨4, _⟩ => ⟨S800000, .i32⟩
  | .hbm, ⟨5, _⟩ => ⟨S160x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x32, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x32, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x32, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x32, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x32, .f32⟩
  | .hbm, ⟨48, _⟩ => ⟨S800000x160, .f32⟩
  | .hbm, ⟨49, _⟩ => ⟨S800000x64, .f32⟩
  | .hbm, ⟨50, _⟩ => ⟨S1x64, .f32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S800000x64, .f32⟩
  | .hbm, ⟨55, _⟩ => ⟨S800000x64, .f32⟩
  | .hbm, ⟨56, _⟩ => ⟨S800000x64, .f32⟩
  | .hbm, ⟨57, _⟩ => ⟨S1x64, .f32⟩
  | .hbm, ⟨58, _⟩ => ⟨S800000x64, .f32⟩
  | .hbm, ⟨59, _⟩ => ⟨S800000x64, .f32⟩
  | .hbm, ⟨60, _⟩ => ⟨S_, .f32⟩
  | .hbm, ⟨61, _⟩ => ⟨S800000x64, .f32⟩
  | .hbm, ⟨62, _⟩ => ⟨S800000x64, .f32⟩
  | .hbm, ⟨63, _⟩ => ⟨S800000x32, .f32⟩
  | .hbm, ⟨64, _⟩ => ⟨S1x32, .f32⟩
  | .hbm, ⟨65, _⟩ => ⟨S800000x32, .f32⟩
  | .hbm, ⟨66, _⟩ => ⟨S800000x32, .f32⟩
  | .hbm, ⟨67, _⟩ => ⟨S_, .f32⟩
  | .hbm, ⟨68, _⟩ => ⟨S800000x32, .f32⟩
  | .hbm, ⟨69, _⟩ => ⟨S800000x32, .f32⟩
  | .hbm, ⟨70, _⟩ => ⟨S800000x32, .f32⟩
  | .hbm, ⟨71, _⟩ => ⟨S800000x32, .f32⟩
  | .hbm, ⟨72, _⟩ => ⟨S_, .f32⟩
  | .hbm, ⟨73, _⟩ => ⟨S100000x32, .f32⟩
  | .hbm, ⟨74, _⟩ => ⟨S800000x1, .i32⟩
  | .hbm, ⟨75, _⟩ => ⟨S100000x32, .f32⟩
  | .hbm, ⟨76, _⟩ => ⟨S100000x32, .f32⟩
  | .hbm, ⟨77, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_cst : Ref sig .tc := ⟨.hbm, 60, rfl⟩
abbrev main_call1_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call2_cst : Ref sig .tc := ⟨.hbm, 67, rfl⟩
abbrev main_call2_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x32_S800000x32_S800000x32_S800000x32_S800000x32_S800000x160_d1 : Shape.Concatenates [S800000x32, S800000x32, S800000x32, S800000x32, S800000x32] S800000x160 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S_S100000x32 : S_.BroadcastsInDim S100000x32 (![] : Fin 0 → Fin S100000x32.rank)
  gather_S100000x32_S800000x1_S800000x32_1_0_n_n_0_1_132_wf : GatherDims.WF S100000x32 S800000x1 S800000x32 [1] [0] [] [0] [] 1 ![1, 32]
  dot_S800000x160_S160x64_S800000x64_1_0_0_1_n_n_wf : DotDims.WF S800000x160 S160x64 S800000x64 [1] [0] [0] [1] [] []
  dot_S800000x64_S64x64_S800000x64_1_0_0_1_n_n_wf : DotDims.WF S800000x64 S64x64 S800000x64 [1] [0] [0] [1] [] []
  dot_S800000x64_S64x32_S800000x32_1_0_0_1_n_n_wf : DotDims.WF S800000x64 S64x32 S800000x32 [1] [0] [0] [1] [] []
  scatter_S100000x32_S800000x1_S800000x32_1_0_0_1_wf : ScatterDims.WF S100000x32 S800000x1 S800000x32 [1] [0] [0] 1
  dot_S100000x32_S32x32_S100000x32_1_0_0_1_n_n_wf : DotDims.WF S100000x32 S32x32 S100000x32 [1] [0] [0] [1] [] []

variable [Facts₀]

def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def dot_S800000x160_S160x64_S800000x64_1_0_0_1_n_n : DotDims S800000x160 S160x64 S800000x64 where
  lhsContracting := [1]
  rhsContracting := [0]
  lhsNonContracting := [0]
  rhsNonContracting := [1]
  lhsBatch := []
  rhsBatch := []
  wf := dot_S800000x160_S160x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.LibHostRows.lean ====
/-
  Row-wise readings of the host program's operations, at an index written with the coordinate constructors: a plain
  `dot_general` at `(p, q)` is the sum over the contracted coordinate; a sum (a maximum) over the second axis at row `p`
  is the initial value plus the row's sum (the fold of `max` from the initial value over the row); and the
  `broadcast_in_dim` forms a keepdims reduction and a bias need: a scalar spread over any shape, a vector made a column
  or a row, a column or a row spread over a matrix.
-/
import proofs.«168394_j21114059227743_1_alg».proof.Proof.LibRowOps
import Idealize.ShloMosaic.Lib.Pipeline.Value

namespace Cert.LibHostRows

open Idealize.ShloMosaic Idealize.ShloMosaic.ValueIdx

/-! ## The host's pointwise operations -/

section Pointwise
variable {s : Shape} {φ : FTy}

theorem hostDivf_apply (x y : FVec Ideal s φ) (i : s.Idx) : Host.divf x y i = Ideal.div (x i) (y i) := rfl
theorem hostSqrt_apply (x : FVec Ideal s φ) (i : s.Idx) : Host.sqrt x i = Ideal.sqrt (x i) := rfl
theorem hostExp_apply (x : FVec Ideal s φ) (i : s.Idx) : Host.exp x i = Ideal.exp (x i) := rfl
theorem hostLog_apply (x : FVec Ideal s φ) (i : s.Idx) : Host.log x i = Ideal.log (x i) := rfl

end Pointwise

/-! ## The host's matrix product -/

/-- A plain `dot_general` of an `[M, K]` by a `[K, N]` array, at `(p, q)`. -/
theorem dotGeneral_plain_apply (M K N : ℕ) {φ₁ φ₂ : FTy} (sched : HostSchedule) (l : FVec Ideal ⟨2, ![M, K]⟩ φ₁)
    (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact LibRowOps.plain_lhs_row M K N _ _
      | ⟨1, _⟩ => exact (LibRowOps.plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (LibRowOps.plain_rhs_contr M K N _ _).trans hk
      | ⟨1, _⟩ => exact LibRowOps.plain_rhs_col M K N _ _)
  rw [el, er]

/-! ## The host's reductions along the rows of a matrix -/

section Rows
variable {a b : ℕ} {φ : FTy} {u : Shape}

/-- The host's sum over the second axis, at row `p`: the initial value plus the sum of the row's entries. -/
theorem hostRowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduceAdd x init h' hu (ix1 p) = init (Shape.Idx.first hu) + ∑ k : Fin b, x (ix2 p k) := by
  unfold Host.reduceAdd
  rw [Ideal.hostReduceAdd_def, Ideal.hostReduceAdd_single h' h]
  exact congrArg (_ + ·) (Finset.sum_congr rfl fun k _ => congrArg x (LibRowOps.lift_row h p k))

/-- The host's maximum over the second axis, at row `p`: the fold of `max` from the initial value over the row's entries. -/
theorem hostRowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduce (FloatOps.maximumf (F := Ideal) (φ := φ)) x init h' hu (ix1 p)
      = (Finset.univ : Finset (Fin b)).fold max (init (Shape.Idx.first hu)) (fun k => x (ix2 p k)) := by
  rw [Host.reduce_eq_fold_single (FloatOps.maximumf (F := Ideal) (φ := φ)) x init h' h hu (ix1 p)]
  exact congrArg (Finset.fold max (init (Shape.Idx.first hu)) · Finset.univ) (funext fun k => congrArg x (LibRowOps.lift_row h p k))

end Rows

/-! ## `broadcast_in_dim` -/

section Bcast
variable {α : Type} {a b : ℕ}

/-- A scalar spread over any shape reads the scalar everywhere. -/
theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 fun ax => ax.elim0

/-- A vector `[a]` made a column `[a, 1]` reads, at `(p, u)`, the vector at `p`. -/
theorem bcast_vec_col_apply (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A vector `[b]` made a row `[1, b]` reads, at `(u, c)`, the vector at `c`. -/
theorem bcast_vec_row_apply (h : (⟨1, ![b]⟩ : Shape).BroadcastsInDim ⟨2, ![1, b]⟩ ![1]) (v : (⟨1, ![b]⟩ : Shape).Idx → α)
    (u : Fin 1) (c : Fin b) : broadcastInDim ⟨2, ![1, b]⟩ ![1] h v (ix2 u c) = v (ix1 c) :=
  broadcastInDim_apply ![1] h v (ix2 u c) (ix1 c) fun ax => by
    match ax with
    | ⟨0, _⟩ =>
      show c.val = if b = 1 then 0 else c.val
      split
      · have := c.isLt; omega
      · rfl

/-- A column `[a, 1]` spread over `[a, b]` reads, at `(p, c)`, the column's entry of row `p`. -/
theorem bcast_col_apply (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- A row `[1, b]` spread over `[a, b]` reads, at `(p, c)`, the row's entry of column `c`. -/
theorem bcast_row_apply (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

end Bcast

end Cert.LibHostRows
-- ==== Proof.Rows.lean ====
/-
  The mathematics both programs share, one edge (one row) at a time, and the two spellings of its steps read at an index.

  For an edge `e` the input row is the five feature rows laid side by side (two sender/receiver rows of one node table,
  two of the other, and the edge's own features), 160 numbers. A dense layer takes a row `x` to
  `j ↦ max (∑ k, x k · w k j + b j) 0`; three of them (160 → 64 → 64 → 32) give the edge's gate, and the edge's message is
  the gate times the difference of two of the gathered rows, entry by entry. For a node `r` the result row is its old
  row plus its aggregated message row times a square matrix.

  Both programs compute exactly these sums of products on the extended reals, in one order of the terms up to the
  order of a finite sum, so no law beyond reading each operation at an index is needed: the kernel spells a layer with
  the matrix unit's product into a zero accumulator, a one-row bias spread down the rows and a maximum with a splat zero;
  the host spells it with `dot_general`, two `broadcast_in_dim`s of the bias vector and a maximum with a broadcast zero.
-/
import proofs.«168394_j21114059227743_1_alg».proof.Proof.LibHostRows
import Idealize.ShloMosaic.Lib.ValueLayout

noncomputable section

namespace Cert.EdgeNet

open Idealize.ShloMosaic Idealize.ShloMosaic.ValueIdx

/-- The rectifier's floor: the value of the zero word. -/
def floor0 : Ideal .f32 := Ideal.ofBits .f32 0x00000000#32

/-- One dense layer with its rectifier, on one row. -/
def layer {K N : ℕ} (x : Fin K → Ideal .f32) (w : Fin K → Fin N → Ideal .f32) (b : Fin N → Ideal .f32) : Fin N → Ideal .f32 :=
  fun j => max ((∑ k : Fin K, x k * w k j) + b j) floor0

/-- The kernel's spelling of a layer, read at row `p`, column `j`: the matrix unit's product of an `[M, K]` block with
    the `[K, N]` weights into zero, plus the one-row bias spread down the rows, floored at a splat zero. -/
theorem matmul_layer_apply {M K N : ℕ} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (p : Fin M) (j : Fin N) :
    maximumf (addf (matmul D none x w (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32)) (ix2 p j)
    = layer (fun k => x (ix2 p k)) (fun k j => w (ix2 k j)) (fun j => b (ix2 (0 : Fin 1) j)) j := by
  subst hD
  rw [maximumf_apply, addf_apply, broadcastTo_1b_ab_apply, shapeCast_self, broadcast_apply]
  exact congrArg (fun z => max (z + b (ix2 (0 : Fin 1) j)) _) (LibRowOps.matmul_plain_zero_apply M K N x w p j)

/-- The host's spelling of a layer, read at row `p`, column `j`: `dot_general` of the `[M, K]` array with the
    `[K, N]` weights, plus the bias vector made a row and spread down the rows, floored at a broadcast zero. -/
theorem dot_layer_apply {M K N : ℕ} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![])
    (p : Fin M) (j : Fin N) :
    maximumf (addf (Host.dotGeneral D none x w) (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32)) (ix2 p j)
    = layer (fun k => x (ix2 p k)) (fun k j => w (ix2 k j)) (fun j => b (ix1 j)) j := by
  subst hD
  rw [maximumf_apply, addf_apply, LibHostRows.bcast_row_apply, LibHostRows.bcast_vec_row_apply, LibHostRows.bcast_scalar_apply,
    constant_apply]
  exact congrArg (fun z => max (z + b (ix1 j)) _) (LibHostRows.dotGeneral_plain_apply M K N _ x w p j)

/-- The five feature rows of an edge laid side by side: entry `k` of the 160 is entry `k % 32` of piece `k / 32`. -/
def sideBySide (f : Fin 5 → Fin 32 → Ideal .f32) : Fin 160 → Ideal .f32 :=
  fun k => f ⟨k.val / 32, by have := k.isLt; omega⟩ ⟨k.val % 32, Nat.mod_lt _ (by decide)⟩

/-- Five `[M, 32]` arrays concatenated along the second axis, read at `(p, k)`. -/
theorem concat5_apply {M : ℕ} (f : Fin 5 → ((⟨2, ![M, 32]⟩ : Shape).Idx → Ideal .f32))
    (h : Shape.Concatenates ((List.ofFn fun n : Fin 5 => (⟨⟨2, ![M, 32]⟩, f n⟩ : (s : Shape) × (s.Idx → Ideal .f32))).map (·.1)) ⟨2, ![M, 160]⟩ 1)
    (p : Fin M) (k : Fin 160) :
    concatenate ⟨2, ![M, 160]⟩ 1 (List.ofFn fun n : Fin 5 => (⟨⟨2, ![M, 32]⟩, f n⟩ : (s : Shape) × (s.Idx → Ideal .f32))) h (ix2 p k)
      = sideBySide (fun n c => f n (ix2 p c)) k :=
  concatenate_ofFn_apply (t := ⟨2, ![M, 160]⟩) (s₁ := ⟨2, ![M, 32]⟩) (1 : Fin 2) f h rfl 32 rfl (ix2 p k) ⟨k.val / 32, by have := k.isLt; omega⟩ rfl
    (ix2 p ⟨k.val % 32, Nat.mod_lt _ (by decide)⟩) rfl
    (fun b hb => by
      match b with
      | ⟨0, _⟩ => rfl
      | ⟨1, _⟩ => exact absurd rfl hb)

/-- Five things in a row. -/
def five {α : Type} (a0 a1 a2 a3 a4 : α) : Fin 5 → α := ![a0, a1, a2, a3, a4]

/-- The same concatenation with its five pieces written out as a list, read at `(p, k)`: the five rows `p` side by side. -/
theorem concat5_list_apply {M : ℕ} (a0 a1 a2 a3 a4 : (⟨2, ![M, 32]⟩ : Shape).Idx → Ideal .f32)
    (h : Shape.Concatenates (([⟨⟨2, ![M, 32]⟩, a0⟩, ⟨⟨2, ![M, 32]⟩, a1⟩, ⟨⟨2, ![M, 32]⟩, a2⟩, ⟨⟨2, ![M, 32]⟩, a3⟩, ⟨⟨2, ![M, 32]⟩, a4⟩] :
      List ((s : Shape) × (s.Idx → Ideal .f32))).map (·.1)) ⟨2, ![M, 160]⟩ 1)
    (p : Fin M) (k : Fin 160) :
    concatenate ⟨2, ![M, 160]⟩ 1 [⟨⟨2, ![M, 32]⟩, a0⟩, ⟨⟨2, ![M, 32]⟩, a1⟩, ⟨⟨2, ![M, 32]⟩, a2⟩, ⟨⟨2, ![M, 32]⟩, a3⟩, ⟨⟨2, ![M, 32]⟩, a4⟩] h (ix2 p k)
      = sideBySide (five (fun c => a0 (ix2 p c)) (fun c => a1 (ix2 p c)) (fun c => a2 (ix2 p c)) (fun c => a3 (ix2 p c)) (fun c => a4 (ix2 p c))) k :=
  (concat5_apply (five a0 a1 a2 a3 a4) h p k).trans (congrArg (sideBySide · k) (funext fun n => by fin_cases n <;> rfl))

/-- An edge's message at column `j`: the three layers' gate times the difference of two gathered rows. -/
def message (f : Fin 5 → Fin 32 → Ideal .f32)
    (w0 : Fin 160 → Fin 64 → Ideal .f32) (b0 : Fin 64 → Ideal .f32) (w1 : Fin 64 → Fin 64 → Ideal .f32) (b1 : Fin 64 → Ideal .f32)
    (w2 : Fin 64 → Fin 32 → Ideal .f32) (b2 : Fin 32 → Ideal .f32) (j : Fin 32) : Ideal .f32 :=
  layer (layer (layer (sideBySide f) w0 b0) w1 b1) w2 b2 j * (f 3 j - f 2 j)

/-- A node's new row at column `j`: its old row plus its aggregated row times the square matrix. -/
def updated (h a : Fin 32 → Ideal .f32) (w : Fin 32 → Fin 32 → Ideal .f32) (j : Fin 32) : Ideal .f32 :=
  h j + ∑ k : Fin 32, a k * w k j

/-- The messages of all 800,000 edges as one function of the five gathered or given `[800000, 32]` arrays, the three weight
    matrices and the three bias rows: at `(e, j)`, edge `e`'s message at column `j`. -/
def edgeFn (a0 a1 a2 a3 a4 : (⟨2, ![800000, 32]⟩ : Shape).Idx → Ideal .f32)
    (w0 : (⟨2, ![160, 64]⟩ : Shape).Idx → Ideal .f32) (b0 : Fin 64 → Ideal .f32)
    (w1 : (⟨2, ![64, 64]⟩ : Shape).Idx → Ideal .f32) (b1 : Fin 64 → Ideal .f32)
    (w2 : (⟨2, ![64, 32]⟩ : Shape).Idx → Ideal .f32) (b2 : Fin 32 → Ideal .f32) :
    (⟨2, ![800000, 32]⟩ : Shape).Idx → Ideal .f32 :=
  fun i => message (five (fun c => a0 (ix2 (i 0) c)) (fun c => a1 (ix2 (i 0) c)) (fun c => a2 (ix2 (i 0) c)) (fun c => a3 (ix2 (i 0) c)) (fun c => a4 (ix2 (i 0) c)))
    (fun k j => w0 (ix2 k j)) b0 (fun k j => w1 (ix2 k j)) b1 (fun k j => w2 (ix2 k j)) b2 (i 1)

/-- The node update on whole arrays: at `(r, j)`, row `r` of the old table plus row `r` of the aggregate times the matrix,
    at column `j`. -/
def nodeFn (h a : (⟨2, ![100000, 32]⟩ : Shape).Idx → Ideal .f32) (w : (⟨2, ![32, 32]⟩ : Shape).Idx → Ideal .f32) :
    (⟨2, ![100000, 32]⟩ : Shape).Idx → Ideal .f32 :=
  fun i => updated (fun k => h (ix2 (i 0) k)) (fun k => a (ix2 (i 0) k)) (fun k j => w (ix2 k j)) (i 1)

end Cert.EdgeNet

end
-- ==== Proof.Edge.lean ====
/-
  The first region's output array, as one function of the arrays the region is entered with.

  The region walks a hundred blocks of 8,000 edges. At a point it loads the blocks of the four gathered node-feature
  arrays and of the edge features, and the three weight matrices and bias rows whole; it lays the five blocks side by
  side, runs the three dense layers with their rectifiers on every row, and stores the gate times the difference of two
  of the gathered blocks. Row `p` of a block at point `t` is edge `8000 t + p`; everything the body computes for that
  row reads row `p` of the five blocks and the weights, so what point `t` writes back is block `t` of ONE function of
  the whole arrays (the edge's message), and the hundred blocks cover all 800,000 edges.
-/
import proofs.«168394_j21114059227743_1_alg».proof.Proof.Gen.KernelIdeal.Frame
import proofs.«168394_j21114059227743_1_alg».proof.Proof.Rows
import Idealize.ShloMosaic.Lib.Pipeline.Value

set_option maxRecDepth 16384

noncomputable section

namespace Cert.KernelIdeal.EdgeValue

open Cert.KernelIdeal Cert.KernelIdeal.Gen Cert.EdgeNet
open Idealize.ShloMosaic Idealize.ShloMosaic.TcCoe Idealize.ShloMosaic.ValueIdx Idealize.SL.Sem
open Idealize.ShloMosaic.Pipeline (Dat Cfg Window)

theorem dot0_plain : dot_S8000x160_S160x64_S8000x64_1_0_0_1_n_n = DotDims.plain 8000 160 64 := rfl
theorem dot1_plain : dot_S8000x64_S64x64_S8000x64_1_0_0_1_n_n = DotDims.plain 8000 64 64 := rfl
theorem dot2_plain : dot_S8000x64_S64x32_S8000x32_1_0_0_1_n_n = DotDims.plain 8000 64 32 := rfl

/-- The three layers' value at row `p`, column `q` of the block, from the loaded blocks' rows `p`. -/
theorem gate_at (x0 x1 x2 x3 x4 : Vec Ideal S8000x32 .f32) (x5 : Vec Ideal S160x64 .f32) (x6 : Vec Ideal S1x64 .f32)
    (x7 : Vec Ideal S64x64 .f32) (x8 : Vec Ideal S1x64 .f32) (x9 : Vec Ideal S64x32 .f32) (x10 : Vec Ideal S1x32 .f32)
    (p : Fin 8000) (q : Fin 32) :
    maximumf (k0_pay2 x0 x1 x2 x3 x4 x5 x6 x7 x8 x9 x10) (broadcast S8000x32 (Scalar.ofBits (F := Ideal) .f32 0x00000000#32)) (ix2 p q)
      = layer (layer (layer (sideBySide (five (fun cc => x0 (ix2 p cc)) (fun cc => x1 (ix2 p cc)) (fun cc => x2 (ix2 p cc)) (fun cc => x3 (ix2 p cc)) (fun cc => x4 (ix2 p cc))))
          (fun k j => x5 (ix2 k j)) (fun j => x6 (ix2 (0 : Fin 1) j))) (fun k j => x7 (ix2 k j)) (fun j => x8 (ix2 (0 : Fin 1) j)))
          (fun k j => x9 (ix2 k j)) (fun j => x10 (ix2 (0 : Fin 1) j)) q := by
  unfold k0_pay2
  rw [shapeCast_self x0, shapeCast_self x1, shapeCast_self x2, shapeCast_self x3]
  simp only [matmul_layer_apply _ dot2_plain, matmul_layer_apply _ dot1_plain, matmul_layer_apply _ dot0_plain, concat5_list_apply]

/-- The body's stored value at row `p`, column `q` of the block: the message of the edge whose rows the blocks' rows `p` are. -/
theorem pay_edge_at (x0 x1 x2 x3 x4 : Vec Ideal S8000x32 .f32) (x5 : Vec Ideal S160x64 .f32) (x6 : Vec Ideal S1x64 .f32)
    (x7 : Vec Ideal S64x64 .f32) (x8 : Vec Ideal S1x64 .f32) (x9 : Vec Ideal S64x32 .f32) (x10 : Vec Ideal S1x32 .f32)
    (p : Fin 8000) (q : Fin 32) :
    k0_pay1 (k0_pay2 x0 x1 x2 x3 x4 x5 x6 x7 x8 x9 x10) x3 x2 (ix2 p q)
      = message (five (fun cc => x0 (ix2 p cc)) (fun cc => x1 (ix2 p cc)) (fun cc => x2 (ix2 p cc)) (fun cc => x3 (ix2 p cc)) (fun cc => x4 (ix2 p cc)))
          (fun k j => x5 (ix2 k j)) (fun j => x6 (ix2 (0 : Fin 1) j)) (fun k j => x7 (ix2 k j)) (fun j => x8 (ix2 (0 : Fin 1) j))
          (fun k j => x9 (ix2 k j)) (fun j => x10 (ix2 (0 : Fin 1) j)) q := by
  unfold k0_pay1
  rw [mulf_apply, subf_apply, shapeCast_self x3, shapeCast_self x2, gate_at]
  rfl

theorem pay_edge (x0 x1 x2 x3 x4 : Vec Ideal S8000x32 .f32) (x5 : Vec Ideal S160x64 .f32) (x6 : Vec Ideal S1x64 .f32)
    (x7 : Vec Ideal S64x64 .f32) (x8 : Vec Ideal S1x64 .f32) (x9 : Vec Ideal S64x32 .f32) (x10 : Vec Ideal S1x32 .f32)
    (y : S8000x32.Idx) :
    k0_pay1 (k0_pay2 x0 x1 x2 x3 x4 x5 x6 x7 x8 x9 x10) x3 x2 y
      = message (five (fun cc => x0 (ix2 (y 0) cc)) (fun cc => x1 (ix2 (y 0) cc)) (fun cc => x2 (ix2 (y 0) cc)) (fun cc => x3 (ix2 (y 0) cc)) (fun cc => x4 (ix2 (y 0) cc)))
          (fun k j => x5 (ix2 k j)) (fun j => x6 (ix2 (0 : Fin 1) j)) (fun k j => x7 (ix2 k j)) (fun j => x8 (ix2 (0 : Fin 1) j))
          (fun k j => x9 (ix2 k j)) (fun j => x10 (ix2 (0 : Fin 1) j)) (y 1) :=
  (congrArg (k0_pay1 (k0_pay2 x0 x1 x2 x3 x4 x5 x6 x7 x8 x9 x10) x3 x2) (eq_ix2 y)).trans (pay_edge_at x0 x1 x2 x3 x4 x5 x6 x7 x8 x9 x10 (y 0) (y 1))

/-- The message depends on its rows, weights and biases only through their values. -/
theorem message_congr {f0 f0' f1 f1' f2 f2' f3 f3' f4 f4' : Fin 32 → Ideal .f32}
    {w0 w0' : Fin 160 → Fin 64 → Ideal .f32} {b0 b0' : Fin 64 → Ideal .f32} {w1 w1' : Fin 64 → Fin 64 → Ideal .f32} {b1 b1' : Fin 64 → Ideal .f32}
    {w2 w2' : Fin 64 → Fin 32 → Ideal .f32} {b2 b2' : Fin 32 → Ideal .f32} {j j' : Fin 32}
    (h0 : ∀ cc, f0 cc = f0' cc) (h1 : ∀ cc, f1 cc = f1' cc) (h2 : ∀ cc, f2 cc = f2' cc) (h3 : ∀ cc, f3 cc = f3' cc) (h4 : ∀ cc, f4 cc = f4' cc)
    (hw0 : ∀ k j, w0 k j = w0' k j) (hb0 : ∀ j, b0 j = b0' j) (hw1 : ∀ k j, w1 k j = w1' k j) (hb1 : ∀ j, b1 j = b1' j)
    (hw2 : ∀ k j, w2 k j = w2' k j) (hb2 : ∀ j, b2 j = b2' j) (hj : j = j') :
    message (five f0 f1 f2 f3 f4) w0 b0 w1 b1 w2 b2 j = message (five f0' f1' f2' f3' f4') w0' b0' w1' b1' w2' b2' j' := by
  obtain rfl : f0 = f0' := funext h0
  obtain rfl : f1 = f1' := funext h1
  obtain rfl : f2 = f2' := funext h2
  obtain rfl : f3 = f3' := funext h3
  obtain rfl : f4 = f4' := funext h4
  obtain rfl : w0 = w0' := funext fun k => funext (hw0 k)
  obtain rfl : b0 = b0' := funext hb0
  obtain rfl : w1 = w1' := funext fun k => funext (hw1 k)
  obtain rfl : b1 = b1' := funext hb1
  obtain rfl : w2 = w2' := funext fun k => funext (hw2 k)
  obtain rfl : b2 = b2' := funext hb2
  subst hj
  rfl

theorem hz : (![0, 0] : Fin 2 → Nat) = fun _ => 0 := funext fun a => by fin_cases a <;> rfl

/-- The printed index maps over the hundred points: the five edge-blocked inputs move with the output's block along the
    rows and stay at column block 0, the weights and biases stay at block (0, 0), and the output's row block is the
    point's number. -/
theorem idx_facts : ∀ t : Fin cfg0.N,
    win0_0.index t (0 : Fin 2) = win0_11.index t (0 : Fin 2)
    ∧ win0_0.index t (1 : Fin 2) = 0
    ∧ win0_1.index t (0 : Fin 2) = win0_11.index t (0 : Fin 2)
    ∧ win0_1.index t (1 : Fin 2) = 0
    ∧ win0_2.index t (0 : Fin 2) = win0_11.index t (0 : Fin 2)
    ∧ win0_2.index t (1 : Fin 2) = 0
    ∧ win0_3.index t (0 : Fin 2) = win0_11.index t (0 : Fin 2)
    ∧ win0_3.index t (1 : Fin 2) = 0
    ∧ win0_4.index t (0 : Fin 2) = win0_11.index t (0 : Fin 2)
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

variable (V : (c : Dev nD) → (b : Ref sig .tc) → Buf (Elt Ideal) ((c : Thread nD τ).loc b))

set_option maxHeartbeats 1600000 in
/-- What point `t` writes back is block `t` of the edges' messages computed from the arrays the region is entered with. -/
theorem flushed_eq (c : Dev nD) (t : Fin cfg0.N) :
    (dat0 V c).flushed 11 t = ((cfg0.win 11).blk t).view.read (Elt Ideal) (edgeFn (V c main_v20) (V c main_v27) (V c main_v6) (V c main_v13) (V c main_arg2) (V c main_arg5) (fun j => V c main_v28 (ix2 (0 : Fin 1) j)) (V c main_arg7) (fun j => V c main_v29 (ix2 (0 : Fin 1) j)) (V c main_arg9) (fun j => V c main_v30 (ix2 (0 : Fin 1) j))) := by
  show (cfg0.win 11).cut (grid0.coords t) ((dat0 V c).after 11 t) = _
  rw [after0_11]
  unfold out0_11
  rw [View.canon_unit_zero hz]
  simp only [View.ld_unit_zero (S := S8000x32) hz, View.ld_unit_zero (S := S160x64) hz, View.ld_unit_zero (S := S1x64) hz,
    View.ld_unit_zero (S := S64x64) hz, View.ld_unit_zero (S := S64x32) hz, View.ld_unit_zero (S := S1x32) hz]
  obtain ⟨e0, e1, e2, e3, e4, e5, e6, e7, e8, e9, e10, e11, e12, e13, e14, e15, e16, e17, e18, e19, e20, e21, e22, e23⟩ := idx_facts t
  funext y
  refine (pay_edge (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) y).trans ?_
  have hy0 : (y 0).val < 8000 := (y 0).isLt
  have hy1 : (y 1).val < 32 := (y 1).isLt
  have hcol : (((cfg0.win 11).blk t).view.emb y) 1 = y 1 := Fin.ext (by
    show win0_11.index t (1 : Fin 2) * 32 + 1 * (y 1).val = (y 1).val; omega)
  have h0 : ∀ k : Fin 32, ((cfg0.win 0).blk t).view.emb (ix2 (y 0) k) = ix2 ((((cfg0.win 11).blk t).view.emb y) 0) k := fun k => by
    funext a; apply Fin.ext
    match a with
    | ⟨0, _⟩ => show win0_0.index t (0 : Fin 2) * 8000 + 1 * (y 0).val = win0_11.index t (0 : Fin 2) * 8000 + 1 * (y 0).val; omega
    | ⟨1, _⟩ => show win0_0.index t (1 : Fin 2) * 32 + 1 * k.val = k.val; omega
  have h1 : ∀ k : Fin 32, ((cfg0.win 1).blk t).view.emb (ix2 (y 0) k) = ix2 ((((cfg0.win 11).blk t).view.emb y) 0) k := fun k => by
    funext a; apply Fin.ext
    match a with
    | ⟨0, _⟩ => show win0_1.index t (0 : Fin 2) * 8000 + 1 * (y 0).val = win0_11.index t (0 : Fin 2) * 8000 + 1 * (y 0).val; omega
    | ⟨1, _⟩ => show win0_1.index t (1 : Fin 2) * 32 + 1 * k.val = k.val; omega
  have h2 : ∀ k : Fin 32, ((cfg0.win 2).blk t).view.emb (ix2 (y 0) k) = ix2 ((((cfg0.win 11).blk t).view.emb y) 0) k := fun k => by
    funext a; apply Fin.ext
    match a with
    | ⟨0, _⟩ => show win0_2.index t (0 : Fin 2) * 8000 + 1 * (y 0).val = win0_11.index t (0 : Fin 2) * 8000 + 1 * (y 0).val; omega
    | ⟨1, _⟩ => show win0_2.index t (1 : Fin 2) * 32 + 1 * k.val = k.val; omega
  have h3 : ∀ k : Fin 32, ((cfg0.win 3).blk t).view.emb (ix2 (y 0) k) = ix2 ((((cfg0.win 11).blk t).view.emb y) 0) k := fun k => by
    funext a; apply Fin.ext
    match a with
    | ⟨0, _⟩ => show win0_3.index t (0 : Fin 2) * 8000 + 1 * (y 0).val = win0_11.index t (0 : Fin 2) * 8000 + 1 * (y 0).val; omega
    | ⟨1, _⟩ => show win0_3.index t (1 : Fin 2) * 32 + 1 * k.val = k.val; omega
  have h4 : ∀ k : Fin 32, ((cfg0.win 4).blk t).view.emb (ix2 (y 0) k) = ix2 ((((cfg0.win 11).blk t).view.emb y) 0) k := fun k => by
    funext a; apply Fin.ext
    match a with
    | ⟨0, _⟩ => show win0_4.index t (0 : Fin 2) * 8000 + 1 * (y 0).val = win0_11.index t (0 : Fin 2) * 8000 + 1 * (y 0).val; omega
    | ⟨1, _⟩ => show win0_4.index t (1 : Fin 2) * 32 + 1 * k.val = k.val; omega
  have h5 : ∀ (k : Fin 160) (j : Fin 64), ((cfg0.win 5).blk t).view.emb (ix2 k j) = ix2 k j := fun k j => by
    funext a; apply Fin.ext
    match a with
    | ⟨0, _⟩ => show win0_5.index t (0 : Fin 2) * 160 + 1 * k.val = k.val; omega
    | ⟨1, _⟩ => show win0_5.index t (1 : Fin 2) * 64 + 1 * j.val = j.val; omega
  have h6 : ∀ j : Fin 64, ((cfg0.win 6).blk t).view.emb (ix2 (0 : Fin 1) j) = ix2 (0 : Fin 1) j := fun j => by
    funext a; apply Fin.ext
    match a with
    | ⟨0, _⟩ => show win0_6.index t (0 : Fin 2) * 1 + 1 * 0 = 0; omega
    | ⟨1, _⟩ => show win0_6.index t (1 : Fin 2) * 64 + 1 * j.val = j.val; omega
  have h7 : ∀ (k : Fin 64) (j : Fin 64), ((cfg0.win 7).blk t).view.emb (ix2 k j) = ix2 k j := fun k j => by
    funext a; apply Fin.ext
    match a with
    | ⟨0, _⟩ => show win0_7.index t (0 : Fin 2) * 64 + 1 * k.val = k.val; omega
    | ⟨1, _⟩ => show win0_7.index t (1 : Fin 2) * 64 + 1 * j.val = j.val; omega
  have h8 : ∀ j : Fin 64, ((cfg0.win 8).blk t).view.emb (ix2 (0 : Fin 1) j) = ix2 (0 : Fin 1) j := fun j => by
    funext a; apply Fin.ext
    match a with
    | ⟨0, _⟩ => show win0_8.index t (0 : Fin 2) * 1 + 1 * 0 = 0; omega
    | ⟨1, _⟩ => show win0_8.index t (1 : Fin 2) * 64 + 1 * j.val = j.val; omega
  have h9 : ∀ (k : Fin 64) (j : Fin 32), ((cfg0.win 9).blk t).view.emb (ix2 k j) = ix2 k j := fun k j => by
    funext a; apply Fin.ext
    match a with
    | ⟨0, _⟩ => show win0_9.index t (0 : Fin 2) * 64 + 1 * k.val = k.val; omega
    | ⟨1, _⟩ => show win0_9.index t (1 : Fin 2) * 32 + 1 * j.val = j.val; omega
  have h10 : ∀ j : Fin 32, ((cfg0.win 10).blk t).view.emb (ix2 (0 : Fin 1) j) = ix2 (0 : Fin 1) j := fun j => by
    funext a; apply Fin.ext
    match a with
    | ⟨0, _⟩ => show win0_10.index t (0 : Fin 2) * 1 + 1 * 0 = 0; omega
    | ⟨1, _⟩ => show win0_10.index t (1 : Fin 2) * 32 + 1 * j.val = j.val; omega
  exact message_congr (fun cc => congrArg (V c main_v20) (h0 cc)) (fun cc => congrArg (V c main_v27) (h1 cc))
    (fun cc => congrArg (V c main_v6) (h2 cc)) (fun cc => congrArg (V c main_v13) (h3 cc)) (fun cc => congrArg (V c main_arg2) (h4 cc))
    (fun k j => congrArg (V c main_arg5) (h5 k j)) (fun j => congrArg (V c main_v28) (h6 j))
    (fun k j => congrArg (V c main_arg7) (h7 k j)) (fun j => congrArg (V c main_v29) (h8 j))
    (fun k j => congrArg (V c main_arg9) (h9 k j)) (fun j => congrArg (V c main_v30) (h10 j)) hcol.symm

/-- An index of the array is in point `t`'s block iff each coordinate is in the block's range on its axis. -/
theorem mem_blk (t : Fin cfg0.N) (i : S800000x32.Idx) :
    i ∈ ((cfg0.win 11).blk t).view.set ↔ ∀ a : Fin 2, win0_11.index t a * S8000x32.size a ≤ (i a).val ∧ (i a).val < win0_11.index t a * S8000x32.size a + S8000x32.size a := by
  show i ∈ ((View.whole main_v31).slice (win0_11.rect t)).set ↔ _
  rw [View.set_slice_whole, Rect.mem_set_unit]
  exact Iff.rfl

/-- Every edge lies in the block of the point its number over 8,000 names. -/
theorem cover (i : S800000x32.Idx) : ∃ t : Fin cfg0.N, (cfg0.win 11).flush t = true ∧ i ∈ ((cfg0.win 11).blk t).view.set := by
  have hi0 : (i 0).val < 800000 := (i 0).isLt
  have hi1 : (i 1).val < 32 := (i 1).isLt
  have hN : (i 0).val / 8000 < cfg0.N := by show _ < grid0.N; rw [N_0]; omega
  refine ⟨⟨(i 0).val / 8000, hN⟩, flush0_11 _, ?_⟩
  obtain ⟨-, -, -, -, -, -, -, -, -, -, -, -, -, -, -, -, -, -, -, -, -, -, e22, e23⟩ := idx_facts ⟨(i 0).val / 8000, hN⟩
  rw [mem_blk]
  intro a
  match a with
  | ⟨0, _⟩ =>
    show win0_11.index ⟨(i 0).val / 8000, hN⟩ (0 : Fin 2) * 8000 ≤ (i 0).val ∧ (i 0).val < win0_11.index ⟨(i 0).val / 8000, hN⟩ (0 : Fin 2) * 8000 + 8000
    rw [e22]; show (i 0).val / 8000 * 8000 ≤ (i 0).val ∧ (i 0).val < (i 0).val / 8000 * 8000 + 8000; omega
  | ⟨1, _⟩ =>
    show win0_11.index ⟨(i 0).val / 8000, hN⟩ (1 : Fin 2) * 32 ≤ (i 1).val ∧ (i 1).val < win0_11.index ⟨(i 0).val / 8000, hN⟩ (1 : Fin 2) * 32 + 32
    rw [e23]; omega

/-- The first region's output array after its hundred write-backs: the edges' messages computed from the arrays the
    region is entered with. -/
theorem final (c : Dev nD) : (dat0 V c).arrAt 11 cfg0.N = edgeFn (V c main_v20) (V c main_v27) (V c main_v6) (V c main_v13) (V c main_arg2) (V c main_arg5) (fun j => V c main_v28 (ix2 (0 : Fin 1) j)) (V c main_arg7) (fun j => V c main_v29 (ix2 (0 : Fin 1) j)) (V c main_arg9) (fun j => V c main_v30 (ix2 (0 : Fin 1) j)) :=
  (dat0 V c).arrAt_eq_of_cover 11 _ (fun t _ => flushed_eq V c t) cover

end Cert.KernelIdeal.EdgeValue

end
-- ==== Proof.Node.lean ====
/-
  The second region's output array, as one function of the arrays the region is entered with.

  The region walks ten blocks of 10,000 node rows. At a point it loads the block of old rows, the block of aggregated
  message rows and the whole square matrix, and stores, row by row, the old row plus the aggregated row times the
  matrix. A block's row `p` at point `t` is row `10000 t + p` of the array, the column is the array's column, and
  the matrix is read whole at every point, so what point `t` writes back is block `t` of ONE function of the whole
  arrays; the ten blocks cover all 100,000 rows, so the array ends holding that function everywhere.
-/
import proofs.«168394_j21114059227743_1_alg».proof.Proof.Gen.KernelIdeal.Frame
import proofs.«168394_j21114059227743_1_alg».proof.Proof.Rows
import Idealize.ShloMosaic.Lib.Pipeline.Value

set_option maxRecDepth 16384

noncomputable section

namespace Cert.KernelIdeal.NodeValue

open Cert.KernelIdeal Cert.KernelIdeal.Gen Cert.EdgeNet
open Idealize.ShloMosaic Idealize.ShloMosaic.TcCoe Idealize.ShloMosaic.ValueIdx Idealize.SL.Sem
open Idealize.ShloMosaic.Pipeline (Dat Cfg Window)

theorem dot_plain : dot_S10000x32_S32x32_S10000x32_1_0_0_1_n_n = DotDims.plain 10000 32 32 := rfl

/-- The body's stored value at an index of the block: the node update of the loaded blocks' rows. -/
theorem pay_node_at (x0 x1 : Vec Ideal S10000x32 .f32) (x2 : Vec Ideal S32x32 .f32) (p : Fin 10000) (q : Fin 32) :
    k1_pay1 x0 x1 x2 (ix2 p q) = updated (fun k => x0 (ix2 p k)) (fun k => x1 (ix2 p k)) (fun k j => x2 (ix2 k j)) q := by
  unfold k1_pay1
  rw [addf_apply, shapeCast_self, dot_plain]
  exact congrArg (x0 (ix2 p q) + ·) (LibRowOps.matmul_plain_zero_apply 10000 32 32 x1 x2 p q)

theorem pay_node (x0 x1 : Vec Ideal S10000x32 .f32) (x2 : Vec Ideal S32x32 .f32) (y : S10000x32.Idx) :
    k1_pay1 x0 x1 x2 y = updated (fun k => x0 (ix2 (y 0) k)) (fun k => x1 (ix2 (y 0) k)) (fun k j => x2 (ix2 k j)) (y 1) :=
  (congrArg (k1_pay1 x0 x1 x2) (eq_ix2 y)).trans (pay_node_at x0 x1 x2 (y 0) (y 1))

theorem hz : (![0, 0] : Fin 2 → Nat) = fun _ => 0 := funext fun a => by fin_cases a <;> rfl

/-- The printed index maps over the ten points: the two row-blocked inputs move with the output's block along the rows
    and stay at column block 0, the matrix stays at block (0, 0), and the output's row block is the point's number. -/
theorem idx_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of the node update of the arrays the region is entered with. -/
theorem flushed_eq (c : Dev nD) (t : Fin cfg1.N) :
    (dat1 V c).flushed 3 t = ((cfg1.win 3).blk t).view.read (Elt Ideal) (nodeFn (V c main_arg0) (V c main_v34) (V c main_arg11)) := by
  show (cfg1.win 3).cut (grid1.coords t) ((dat1 V c).after 3 t) = _
  rw [after1_3]
  unfold out1_3
  rw [View.canon_unit_zero hz]
  simp only [View.ld_unit_zero (S := S10000x32) hz, View.ld_unit_zero (S := S32x32) hz]
  obtain ⟨e0, e1, e2, e3, e4, e5, e6, e7⟩ := idx_facts t
  funext y
  refine (pay_node (iblk1 V c 0 t) (iblk1 V c 1 t) (iblk1 V c 2 t) y).trans ?_
  have hy0 : (y 0).val < 10000 := (y 0).isLt
  have hy1 : (y 1).val < 32 := (y 1).isLt
  have hcol : (((cfg1.win 3).blk t).view.emb y) 1 = y 1 := Fin.ext (by
    show win1_3.index t (1 : Fin 2) * 32 + 1 * (y 1).val = (y 1).val; omega)
  have h0 : ∀ k : Fin 32, ((cfg1.win 0).blk t).view.emb (ix2 (y 0) k) = ix2 ((((cfg1.win 3).blk t).view.emb y) 0) k := fun k => by
    funext a; apply Fin.ext
    match a with
    | ⟨0, _⟩ => show win1_0.index t (0 : Fin 2) * 10000 + 1 * (y 0).val = win1_3.index t (0 : Fin 2) * 10000 + 1 * (y 0).val; omega
    | ⟨1, _⟩ => show win1_0.index t (1 : Fin 2) * 32 + 1 * k.val = k.val; omega
  have h1 : ∀ k : Fin 32, ((cfg1.win 1).blk t).view.emb (ix2 (y 0) k) = ix2 ((((cfg1.win 3).blk t).view.emb y) 0) k := fun k => by
    funext a; apply Fin.ext
    match a with
    | ⟨0, _⟩ => show win1_1.index t (0 : Fin 2) * 10000 + 1 * (y 0).val = win1_3.index t (0 : Fin 2) * 10000 + 1 * (y 0).val; omega
    | ⟨1, _⟩ => show win1_1.index t (1 : Fin 2) * 32 + 1 * k.val = k.val; omega
  have h2 : ∀ (k j : Fin 32), ((cfg1.win 2).blk t).view.emb (ix2 k j) = ix2 k j := fun k j => by
    funext a; apply Fin.ext
    match a with
    | ⟨0, _⟩ => show win1_2.index t (0 : Fin 2) * 32 + 1 * k.val = k.val; omega
    | ⟨1, _⟩ => show win1_2.index t (1 : Fin 2) * 32 + 1 * j.val = j.val; omega
  show updated (fun k => V c main_arg0 (((cfg1.win 0).blk t).view.emb (ix2 (y 0) k)))
      (fun k => V c main_v34 (((cfg1.win 1).blk t).view.emb (ix2 (y 0) k)))
      (fun k j => V c main_arg11 (((cfg1.win 2).blk t).view.emb (ix2 k j))) (y 1)
    = updated (fun k => V c main_arg0 (ix2 ((((cfg1.win 3).blk t).view.emb y) 0) k))
      (fun k => V c main_v34 (ix2 ((((cfg1.win 3).blk t).view.emb y) 0) k))
      (fun k j => V c main_arg11 (ix2 k j)) ((((cfg1.win 3).blk t).view.emb y) 1)
  simp only [h0, h1, h2, hcol] <;> rfl

/-- An index of the array is in point `t`'s block iff each coordinate is in the block's range on its axis. -/
theorem mem_blk (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v35).slice (win1_3.rect t)).set ↔ _
  rw [View.set_slice_whole, Rect.mem_set_unit]
  exact Iff.rfl

/-- Every row lies in the block of the point its number over 10,000 names. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : (i 0).val / 10000 < cfg1.N := by show _ < grid1.N; rw [N_1]; omega
  refine ⟨⟨(i 0).val / 10000, hN⟩, flush1_3 _, ?_⟩
  obtain ⟨-, -, -, -, -, -, e6, e7⟩ := idx_facts ⟨(i 0).val / 10000, hN⟩
  rw [mem_blk]
  intro a
  match a with
  | ⟨0, _⟩ =>
    show win1_3.index ⟨(i 0).val / 10000, hN⟩ (0 : Fin 2) * 10000 ≤ (i 0).val ∧ (i 0).val < win1_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, hN⟩ (1 : Fin 2) * 32 ≤ (i 1).val ∧ (i 1).val < win1_3.index ⟨(i 0).val / 10000, hN⟩ (1 : Fin 2) * 32 + 32
    rw [e7]; omega

/-- The second region's output array after its ten write-backs: the node update of the arrays the region is entered with. -/
theorem final (c : Dev nD) : (dat1 V c).arrAt 3 cfg1.N = nodeFn (V c main_arg0) (V c main_v34) (V c main_arg11) :=
  (dat1 V c).arrAt_eq_of_cover 3 _ (fun t _ => flushed_eq V c t) cover

end Cert.KernelIdeal.NodeValue

end
-- ==== Proof.Stretch.lean ====
/-
  The two-region program's result buffer, read back to the launch memory.

  Before the first region the host gathers rows of the two node tables by the sender and receiver indices (a negative
  index wrapped by the table's length first) and views each bias vector as a one-row matrix; nothing else is written. So
  the first region is entered with those gathered arrays, the edge features, the weights and the bias rows, and leaves
  the edges' messages in its output array. The host then scatter-adds the messages by receiver into a zero table, and
  the second region, entered with the launch table, that aggregate and the square matrix, leaves the node update in the
  result buffer.
-/
import proofs.«168394_j21114059227743_1_alg».proof.Proof.Edge
import proofs.«168394_j21114059227743_1_alg».proof.Proof.Node
import Idealize.ShloMosaic.Lib.StableHlo.Run
import Idealize.ShloMosaic.Lib.ValueLayout

set_option maxRecDepth 16384

noncomputable section

namespace Cert.KernelIdeal.Whole

open Cert.KernelIdeal Cert.KernelIdeal.Gen Cert.EdgeNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## What the first region is entered with -/

set_option maxHeartbeats 8000000 in
theorem V1_v20 (c : Dev nD) : V1 m ρ c main_v20 = (Host.gather gather_S100000x32_S800000x1_S800000x32_1_0_n_n_0_1_132 (m ((c.tc : Thread nD τ).loc main_arg1)) (broadcastInDim S800000x1 ![0] bcast_S800000_S800000x1_0 (select (cmpi .slt (m ((c.tc : Thread nD τ).loc main_arg3)) (broadcastInDim S800000 ![] bcast_S_S800000 (constantI S_ 32 0#32))) (addi (m ((c.tc : Thread nD τ).loc main_arg3)) (broadcastInDim S800000 ![] bcast_S_S800000 (constantI S_ 32 100000#32))) (m ((c.tc : Thread nD τ).loc main_arg3))))) := by
  show StableHlo.after hostOps0 (W0 m ρ c) (Proc.devRef .tc main_v20) = _
  after_results
set_option maxHeartbeats 8000000 in
theorem V1_v27 (c : Dev nD) : V1 m ρ c main_v27 = (Host.gather gather_S100000x32_S800000x1_S800000x32_1_0_n_n_0_1_132 (m ((c.tc : Thread nD τ).loc main_arg1)) (broadcastInDim S800000x1 ![0] bcast_S800000_S800000x1_0 (select (cmpi .slt (m ((c.tc : Thread nD τ).loc main_arg4)) (broadcastInDim S800000 ![] bcast_S_S800000 (constantI S_ 32 0#32))) (addi (m ((c.tc : Thread nD τ).loc main_arg4)) (broadcastInDim S800000 ![] bcast_S_S800000 (constantI S_ 32 100000#32))) (m ((c.tc : Thread nD τ).loc main_arg4))))) := by
  show StableHlo.after hostOps0 (W0 m ρ c) (Proc.devRef .tc main_v27) = _
  after_results
set_option maxHeartbeats 8000000 in
theorem V1_v6 (c : Dev nD) : V1 m ρ c main_v6 = (Host.gather gather_S100000x32_S800000x1_S800000x32_1_0_n_n_0_1_132 (m ((c.tc : Thread nD τ).loc main_arg0)) (broadcastInDim S800000x1 ![0] bcast_S800000_S800000x1_0 (select (cmpi .slt (m ((c.tc : Thread nD τ).loc main_arg3)) (broadcastInDim S800000 ![] bcast_S_S800000 (constantI S_ 32 0#32))) (addi (m ((c.tc : Thread nD τ).loc main_arg3)) (broadcastInDim S800000 ![] bcast_S_S800000 (constantI S_ 32 100000#32))) (m ((c.tc : Thread nD τ).loc main_arg3))))) := by
  show StableHlo.after hostOps0 (W0 m ρ c) (Proc.devRef .tc main_v6) = _
  after_results
set_option maxHeartbeats 8000000 in
theorem V1_v13 (c : Dev nD) : V1 m ρ c main_v13 = (Host.gather gather_S100000x32_S800000x1_S800000x32_1_0_n_n_0_1_132 (m ((c.tc : Thread nD τ).loc main_arg0)) (broadcastInDim S800000x1 ![0] bcast_S800000_S800000x1_0 (select (cmpi .slt (m ((c.tc : Thread nD τ).loc main_arg4)) (broadcastInDim S800000 ![] bcast_S_S800000 (constantI S_ 32 0#32))) (addi (m ((c.tc : Thread nD τ).loc main_arg4)) (broadcastInDim S800000 ![] bcast_S_S800000 (constantI S_ 32 100000#32))) (m ((c.tc : Thread nD τ).loc main_arg4))))) := by
  show StableHlo.after hostOps0 (W0 m ρ c) (Proc.devRef .tc main_v13) = _
  after_results
set_option maxHeartbeats 8000000 in
theorem V1_arg2 (c : Dev nD) : V1 m ρ c main_arg2 = (m ((c.tc : Thread nD τ).loc main_arg2)) := by
  show StableHlo.after hostOps0 (W0 m ρ c) (Proc.devRef .tc main_arg2) = _
  after_results
set_option maxHeartbeats 8000000 in
theorem V1_arg5 (c : Dev nD) : V1 m ρ c main_arg5 = (m ((c.tc : Thread nD τ).loc main_arg5)) := by
  show StableHlo.after hostOps0 (W0 m ρ c) (Proc.devRef .tc main_arg5) = _
  after_results
set_option maxHeartbeats 8000000 in
theorem V1_arg7 (c : Dev nD) : V1 m ρ c main_arg7 = (m ((c.tc : Thread nD τ).loc main_arg7)) := by
  show StableHlo.after hostOps0 (W0 m ρ c) (Proc.devRef .tc main_arg7) = _
  after_results
set_option maxHeartbeats 8000000 in
theorem V1_arg9 (c : Dev nD) : V1 m ρ c main_arg9 = (m ((c.tc : Thread nD τ).loc main_arg9)) := by
  show StableHlo.after hostOps0 (W0 m ρ c) (Proc.devRef .tc main_arg9) = _
  after_results
set_option maxHeartbeats 8000000 in
theorem V1_v28 (c : Dev nD) : V1 m ρ c main_v28 = shapeCast S1x64 (m ((c.tc : Thread nD τ).loc main_arg6)) shapeCasts_S64_S1x64 := by
  show StableHlo.after hostOps0 (W0 m ρ c) (Proc.devRef .tc main_v28) = _
  after_results
  rfl
/-- The reshaped bias row read along its one row is the bias vector. -/
theorem V1_b0 (c : Dev nD) : (fun j : Fin 64 => V1 m ρ c main_v28 (ix2 (0 : Fin 1) j)) = fun j => (m ((c.tc : Thread nD τ).loc main_arg6)) (ix1 j) :=
  funext fun j => (congrFun (V1_v28 m ρ c) (ix2 (0 : Fin 1) j)).trans (shapeCast_a_1a_apply _ _ (0 : Fin 1) j)
set_option maxHeartbeats 8000000 in
theorem V1_v29 (c : Dev nD) : V1 m ρ c main_v29 = shapeCast S1x64 (m ((c.tc : Thread nD τ).loc main_arg8)) shapeCasts_S64_S1x64 := by
  show StableHlo.after hostOps0 (W0 m ρ c) (Proc.devRef .tc main_v29) = _
  after_results
  rfl
/-- The reshaped bias row read along its one row is the bias vector. -/
theorem V1_b1 (c : Dev nD) : (fun j : Fin 64 => V1 m ρ c main_v29 (ix2 (0 : Fin 1) j)) = fun j => (m ((c.tc : Thread nD τ).loc main_arg8)) (ix1 j) :=
  funext fun j => (congrFun (V1_v29 m ρ c) (ix2 (0 : Fin 1) j)).trans (shapeCast_a_1a_apply _ _ (0 : Fin 1) j)
set_option maxHeartbeats 8000000 in
theorem V1_v30 (c : Dev nD) : V1 m ρ c main_v30 = shapeCast S1x32 (m ((c.tc : Thread nD τ).loc main_arg10)) shapeCasts_S32_S1x32 := by
  show StableHlo.after hostOps0 (W0 m ρ c) (Proc.devRef .tc main_v30) = _
  after_results
  rfl
/-- The reshaped bias row read along its one row is the bias vector. -/
theorem V1_b2 (c : Dev nD) : (fun j : Fin 32 => V1 m ρ c main_v30 (ix2 (0 : Fin 1) j)) = fun j => (m ((c.tc : Thread nD τ).loc main_arg10)) (ix1 j) :=
  funext fun j => (congrFun (V1_v30 m ρ c) (ix2 (0 : Fin 1) j)).trans (shapeCast_a_1a_apply _ _ (0 : Fin 1) j)

/-! ## Between the regions -/

/-- The first region's output array at its exit: the edges' messages of the launch arrays. -/
theorem W2_v31 (c : Dev nD) : W2 m ρ c (Proc.devRef .tc main_v31) = (edgeFn (Host.gather gather_S100000x32_S800000x1_S800000x32_1_0_n_n_0_1_132 (m ((c.tc : Thread nD τ).loc main_arg1)) (broadcastInDim S800000x1 ![0] bcast_S800000_S800000x1_0 (select (cmpi .slt (m ((c.tc : Thread nD τ).loc main_arg3)) (broadcastInDim S800000 ![] bcast_S_S800000 (constantI S_ 32 0#32))) (addi (m ((c.tc : Thread nD τ).loc main_arg3)) (broadcastInDim S800000 ![] bcast_S_S800000 (constantI S_ 32 100000#32))) (m ((c.tc : Thread nD τ).loc main_arg3))))) (Host.gather gather_S100000x32_S800000x1_S800000x32_1_0_n_n_0_1_132 (m ((c.tc : Thread nD τ).loc main_arg1)) (broadcastInDim S800000x1 ![0] bcast_S800000_S800000x1_0 (select (cmpi .slt (m ((c.tc : Thread nD τ).loc main_arg4)) (broadcastInDim S800000 ![] bcast_S_S800000 (constantI S_ 32 0#32))) (addi (m ((c.tc : Thread nD τ).loc main_arg4)) (broadcastInDim S800000 ![] bcast_S_S800000 (constantI S_ 32 100000#32))) (m ((c.tc : Thread nD τ).loc main_arg4))))) (Host.gather gather_S100000x32_S800000x1_S800000x32_1_0_n_n_0_1_132 (m ((c.tc : Thread nD τ).loc main_arg0)) (broadcastInDim S800000x1 ![0] bcast_S800000_S800000x1_0 (select (cmpi .slt (m ((c.tc : Thread nD τ).loc main_arg3)) (broadcastInDim S800000 ![] bcast_S_S800000 (constantI S_ 32 0#32))) (addi (m ((c.tc : Thread nD τ).loc main_arg3)) (broadcastInDim S800000 ![] bcast_S_S800000 (constantI S_ 32 100000#32))) (m ((c.tc : Thread nD τ).loc main_arg3))))) (Host.gather gather_S100000x32_S800000x1_S800000x32_1_0_n_n_0_1_132 (m ((c.tc : Thread nD τ).loc main_arg0)) (broadcastInDim S800000x1 ![0] bcast_S800000_S800000x1_0 (select (cmpi .slt (m ((c.tc : Thread nD τ).loc main_arg4)) (broadcastInDim S800000 ![] bcast_S_S800000 (constantI S_ 32 0#32))) (addi (m ((c.tc : Thread nD τ).loc main_arg4)) (broadcastInDim S800000 ![] bcast_S_S800000 (constantI S_ 32 100000#32))) (m ((c.tc : Thread nD τ).loc main_arg4)))))
      (m ((c.tc : Thread nD τ).loc main_arg2)) (m ((c.tc : Thread nD τ).loc main_arg5)) (fun j => (m ((c.tc : Thread nD τ).loc main_arg6)) (ix1 j)) (m ((c.tc : Thread nD τ).loc main_arg7)) (fun j => (m ((c.tc : Thread nD τ).loc main_arg8)) (ix1 j)) (m ((c.tc : Thread nD τ).loc main_arg9)) (fun j => (m ((c.tc : Thread nD τ).loc main_arg10)) (ix1 j))) := by
  rw [show W2 m ρ c (Proc.devRef .tc main_v31) = (dat0 (V1 m ρ) c).arrAt 11 cfg0.N from W2_arr m ρ c 11, EdgeValue.final (V1 m ρ) c,
    V1_v20, V1_v27, V1_v6, V1_v13, V1_arg2, V1_arg5, V1_b0, V1_arg7, V1_b1, V1_arg9, V1_b2]

set_option maxHeartbeats 8000000 in
theorem W1_arg0 (c : Dev nD) : W1 m ρ c (Proc.devRef .tc main_arg0) = (m ((c.tc : Thread nD τ).loc main_arg0)) := by
  show StableHlo.after hostOps0 (W0 m ρ c) (Proc.devRef .tc main_arg0) = _
  after_results
set_option maxHeartbeats 8000000 in
theorem W1_arg4 (c : Dev nD) : W1 m ρ c (Proc.devRef .tc main_arg4) = (m ((c.tc : Thread nD τ).loc main_arg4)) := by
  show StableHlo.after hostOps0 (W0 m ρ c) (Proc.devRef .tc main_arg4) = _
  after_results
set_option maxHeartbeats 8000000 in
theorem W1_arg11 (c : Dev nD) : W1 m ρ c (Proc.devRef .tc main_arg11) = (m ((c.tc : Thread nD τ).loc main_arg11)) := by
  show StableHlo.after hostOps0 (W0 m ρ c) (Proc.devRef .tc main_arg11) = _
  after_results

/-! ## What the second region is entered with -/

theorem V3_arg0 (c : Dev nD) : V3 m ρ c main_arg0 = (m ((c.tc : Thread nD τ).loc main_arg0)) := by
  show StableHlo.after hostOps1 (W2 m ρ c) (Proc.devRef .tc main_arg0) = _
  after_results
  exact (W2_of_ne m ρ c main_arg0 (by decide)).trans (W1_arg0 m ρ c)

theorem V3_arg11 (c : Dev nD) : V3 m ρ c main_arg11 = (m ((c.tc : Thread nD τ).loc main_arg11)) := by
  show StableHlo.after hostOps1 (W2 m ρ c) (Proc.devRef .tc main_arg11) = _
  after_results
  exact (W2_of_ne m ρ c main_arg11 (by decide)).trans (W1_arg11 m ρ c)

/-- The aggregate: the host's scatter-add, by receiver, of the edges' messages into a zero table. -/
theorem V3_v34 (c : Dev nD) : V3 m ρ c main_v34
    = Host.scatterAdd scatter_S100000x32_S800000x1_S800000x32_1_0_0_1 (broadcastInDim S100000x32 ![] bcast_S_S100000x32 (constant S_ .f32 0x00000000#32))
        (broadcastInDim S800000x1 ![0] bcast_S800000_S800000x1_0 (m ((c.tc : Thread nD τ).loc main_arg4))) (edgeFn (Host.gather gather_S100000x32_S800000x1_S800000x32_1_0_n_n_0_1_132 (m ((c.tc : Thread nD τ).loc main_arg1)) (broadcastInDim S800000x1 ![0] bcast_S800000_S800000x1_0 (select (cmpi .slt (m ((c.tc : Thread nD τ).loc main_arg3)) (broadcastInDim S800000 ![] bcast_S_S800000 (constantI S_ 32 0#32))) (addi (m ((c.tc : Thread nD τ).loc main_arg3)) (broadcastInDim S800000 ![] bcast_S_S800000 (constantI S_ 32 100000#32))) (m ((c.tc : Thread nD τ).loc main_arg3))))) (Host.gather gather_S100000x32_S800000x1_S800000x32_1_0_n_n_0_1_132 (m ((c.tc : Thread nD τ).loc main_arg1)) (broadcastInDim S800000x1 ![0] bcast_S800000_S800000x1_0 (select (cmpi .slt (m ((c.tc : Thread nD τ).loc main_arg4)) (broadcastInDim S800000 ![] bcast_S_S800000 (constantI S_ 32 0#32))) (addi (m ((c.tc : Thread nD τ).loc main_arg4)) (broadcastInDim S800000 ![] bcast_S_S800000 (constantI S_ 32 100000#32))) (m ((c.tc : Thread nD τ).loc main_arg4))))) (Host.gather gather_S100000x32_S800000x1_S800000x32_1_0_n_n_0_1_132 (m ((c.tc : Thread nD τ).loc main_arg0)) (broadcastInDim S800000x1 ![0] bcast_S800000_S800000x1_0 (select (cmpi .slt (m ((c.tc : Thread nD τ).loc main_arg3)) (broadcastInDim S800000 ![] bcast_S_S800000 (constantI S_ 32 0#32))) (addi (m ((c.tc : Thread nD τ).loc main_arg3)) (broadcastInDim S800000 ![] bcast_S_S800000 (constantI S_ 32 100000#32))) (m ((c.tc : Thread nD τ).loc main_arg3))))) (Host.gather gather_S100000x32_S800000x1_S800000x32_1_0_n_n_0_1_132 (m ((c.tc : Thread nD τ).loc main_arg0)) (broadcastInDim S800000x1 ![0] bcast_S800000_S800000x1_0 (select (cmpi .slt (m ((c.tc : Thread nD τ).loc main_arg4)) (broadcastInDim S800000 ![] bcast_S_S800000 (constantI S_ 32 0#32))) (addi (m ((c.tc : Thread nD τ).loc main_arg4)) (broadcastInDim S800000 ![] bcast_S_S800000 (constantI S_ 32 100000#32))) (m ((c.tc : Thread nD τ).loc main_arg4)))))
      (m ((c.tc : Thread nD τ).loc main_arg2)) (m ((c.tc : Thread nD τ).loc main_arg5)) (fun j => (m ((c.tc : Thread nD τ).loc main_arg6)) (ix1 j)) (m ((c.tc : Thread nD τ).loc main_arg7)) (fun j => (m ((c.tc : Thread nD τ).loc main_arg8)) (ix1 j)) (m ((c.tc : Thread nD τ).loc main_arg9)) (fun j => (m ((c.tc : Thread nD τ).loc main_arg10)) (ix1 j))) := by
  show StableHlo.after hostOps1 (W2 m ρ c) (Proc.devRef .tc main_v34) = _
  after_results
  rw [W2_v31, (W2_of_ne m ρ c main_arg4 (by decide)).trans (W1_arg4 m ρ c)]

/-! ## The result -/

/-- The result buffer at the last boundary: the node update of the launch table, the scatter-add by receiver of the
    edges' messages, and the matrix. -/
theorem result_eq (c : Dev nD) : W4 m ρ c (Proc.devRef .tc main_v35)
    = nodeFn (m ((c.tc : Thread nD τ).loc main_arg0))
        (Host.scatterAdd scatter_S100000x32_S800000x1_S800000x32_1_0_0_1 (broadcastInDim S100000x32 ![] bcast_S_S100000x32 (constant S_ .f32 0x00000000#32))
          (broadcastInDim S800000x1 ![0] bcast_S800000_S800000x1_0 (m ((c.tc : Thread nD τ).loc main_arg4))) (edgeFn (Host.gather gather_S100000x32_S800000x1_S800000x32_1_0_n_n_0_1_132 (m ((c.tc : Thread nD τ).loc main_arg1)) (broadcastInDim S800000x1 ![0] bcast_S800000_S800000x1_0 (select (cmpi .slt (m ((c.tc : Thread nD τ).loc main_arg3)) (broadcastInDim S800000 ![] bcast_S_S800000 (constantI S_ 32 0#32))) (addi (m ((c.tc : Thread nD τ).loc main_arg3)) (broadcastInDim S800000 ![] bcast_S_S800000 (constantI S_ 32 100000#32))) (m ((c.tc : Thread nD τ).loc main_arg3))))) (Host.gather gather_S100000x32_S800000x1_S800000x32_1_0_n_n_0_1_132 (m ((c.tc : Thread nD τ).loc main_arg1)) (broadcastInDim S800000x1 ![0] bcast_S800000_S800000x1_0 (select (cmpi .slt (m ((c.tc : Thread nD τ).loc main_arg4)) (broadcastInDim S800000 ![] bcast_S_S800000 (constantI S_ 32 0#32))) (addi (m ((c.tc : Thread nD τ).loc main_arg4)) (broadcastInDim S800000 ![] bcast_S_S800000 (constantI S_ 32 100000#32))) (m ((c.tc : Thread nD τ).loc main_arg4))))) (Host.gather gather_S100000x32_S800000x1_S800000x32_1_0_n_n_0_1_132 (m ((c.tc : Thread nD τ).loc main_arg0)) (broadcastInDim S800000x1 ![0] bcast_S800000_S800000x1_0 (select (cmpi .slt (m ((c.tc : Thread nD τ).loc main_arg3)) (broadcastInDim S800000 ![] bcast_S_S800000 (constantI S_ 32 0#32))) (addi (m ((c.tc : Thread nD τ).loc main_arg3)) (broadcastInDim S800000 ![] bcast_S_S800000 (constantI S_ 32 100000#32))) (m ((c.tc : Thread nD τ).loc main_arg3))))) (Host.gather gather_S100000x32_S800000x1_S800000x32_1_0_n_n_0_1_132 (m ((c.tc : Thread nD τ).loc main_arg0)) (broadcastInDim S800000x1 ![0] bcast_S800000_S800000x1_0 (select (cmpi .slt (m ((c.tc : Thread nD τ).loc main_arg4)) (broadcastInDim S800000 ![] bcast_S_S800000 (constantI S_ 32 0#32))) (addi (m ((c.tc : Thread nD τ).loc main_arg4)) (broadcastInDim S800000 ![] bcast_S_S800000 (constantI S_ 32 100000#32))) (m ((c.tc : Thread nD τ).loc main_arg4)))))
      (m ((c.tc : Thread nD τ).loc main_arg2)) (m ((c.tc : Thread nD τ).loc main_arg5)) (fun j => (m ((c.tc : Thread nD τ).loc main_arg6)) (ix1 j)) (m ((c.tc : Thread nD τ).loc main_arg7)) (fun j => (m ((c.tc : Thread nD τ).loc main_arg8)) (ix1 j)) (m ((c.tc : Thread nD τ).loc main_arg9)) (fun j => (m ((c.tc : Thread nD τ).loc main_arg10)) (ix1 j))))
        (m ((c.tc : Thread nD τ).loc main_arg11)) := by
  rw [show W4 m ρ c (Proc.devRef .tc main_v35) = (dat1 (V3 m ρ) c).arrAt 3 cfg1.N from W4_arr m ρ c 3, NodeValue.final (V3 m ρ) c,
    V3_arg0, V3_v34, V3_arg11]

end Cert.KernelIdeal.Whole

end
-- ==== Proof.Ref.lean ====
/-
  The reference's result as the same two functions.

  The reference computes all 800,000 edges at once on the host: the five `[800000, 32]` arrays concatenated, three
  `dot_general`s each followed by the bias vector broadcast down the rows and a maximum with a broadcast zero, then the
  product with the difference of two of the gathered arrays; the host's scatter-add of those messages by receiver; and
  finally the old table plus the aggregate times the square matrix. Read at an index, the messages array is the edge's
  message of the row-level mathematics, and the last two operations are the node update, so the result is the node
  update of the launch table, the scatter-add of the edges' messages, and the matrix.
-/
import proofs.«168394_j21114059227743_1_alg».proof.Proof.Gen.ReferenceIdeal.Run
import proofs.«168394_j21114059227743_1_alg».proof.Proof.Rows

set_option maxRecDepth 16384

noncomputable section

namespace Cert.ReferenceIdeal.RefValue

open Cert.ReferenceIdeal Cert.ReferenceIdeal.Gen Cert.EdgeNet
open Idealize.ShloMosaic Idealize.ShloMosaic.TcCoe Idealize.ShloMosaic.ValueIdx Idealize.SL.Sem

theorem dot0_plain : dot_S800000x160_S160x64_S800000x64_1_0_0_1_n_n = DotDims.plain 800000 160 64 := rfl
theorem dot1_plain : dot_S800000x64_S64x64_S800000x64_1_0_0_1_n_n = DotDims.plain 800000 64 64 := rfl
theorem dot2_plain : dot_S800000x64_S64x32_S800000x32_1_0_0_1_n_n = DotDims.plain 800000 64 32 := rfl
theorem dot3_plain : dot_S100000x32_S32x32_S100000x32_1_0_0_1_n_n = DotDims.plain 100000 32 32 := rfl

/-- The host's messages array, at edge `p`, column `q`: that edge's message. -/
theorem messages_at (g0 g1 g2 g3 a4 : FVec Ideal S800000x32 .f32) (w0 : FVec Ideal S160x64 .f32) (b0 : FVec Ideal S64 .f32)
    (w1 : FVec Ideal S64x64 .f32) (b1 : FVec Ideal S64 .f32) (w2 : FVec Ideal S64x32 .f32) (b2 : FVec Ideal S32 .f32)
    (p : Fin 800000) (q : Fin 32) :
    mulf (maximumf (addf (Host.dotGeneral dot_S800000x64_S64x32_S800000x32_1_0_0_1_n_n none (maximumf (addf (Host.dotGeneral dot_S800000x64_S64x64_S800000x64_1_0_0_1_n_n none (maximumf (addf (Host.dotGeneral dot_S800000x160_S160x64_S800000x64_1_0_0_1_n_n none (concatenate S800000x160 1 [⟨S800000x32, g0⟩, ⟨S800000x32, g1⟩, ⟨S800000x32, g2⟩, ⟨S800000x32, g3⟩, ⟨S800000x32, a4⟩] concatenates_S800000x32_S800000x32_S800000x32_S800000x32_S800000x32_S800000x160_d1) w0) (broadcastInDim S800000x64 ![0, 1] bcast_S1x64_S800000x64_0_1 (broadcastInDim S1x64 ![1] bcast_S64_S1x64_1 b0))) (broadcastInDim S800000x64 ![] bcast_S_S800000x64 (constant S_ .f32 0x00000000#32))) w1) (broadcastInDim S800000x64 ![0, 1] bcast_S1x64_S800000x64_0_1 (broadcastInDim S1x64 ![1] bcast_S64_S1x64_1 b1))) (broadcastInDim S800000x64 ![] bcast_S_S800000x64 (constant S_ .f32 0x00000000#32))) w2) (broadcastInDim S800000x32 ![0, 1] bcast_S1x32_S800000x32_0_1 (broadcastInDim S1x32 ![1] bcast_S32_S1x32_1 b2))) (broadcastInDim S800000x32 ![] bcast_S_S800000x32 (constant S_ .f32 0x00000000#32))) (subf g3 g2) (ix2 p q)
      = message (five (fun cc => g0 (ix2 p cc)) (fun cc => g1 (ix2 p cc)) (fun cc => g2 (ix2 p cc)) (fun cc => g3 (ix2 p cc)) (fun cc => a4 (ix2 p cc)))
          (fun k j => w0 (ix2 k j)) (fun j => b0 (ix1 j)) (fun k j => w1 (ix2 k j)) (fun j => b1 (ix1 j)) (fun k j => w2 (ix2 k j)) (fun j => b2 (ix1 j)) q := by
  rw [mulf_apply, subf_apply]
  simp only [dot_layer_apply _ dot2_plain, dot_layer_apply _ dot1_plain, dot_layer_apply _ dot0_plain, concat5_list_apply]
  rfl

/-- The host's messages array is the edges' messages. -/
theorem messages_eq (g0 g1 g2 g3 a4 : FVec Ideal S800000x32 .f32) (w0 : FVec Ideal S160x64 .f32) (b0 : FVec Ideal S64 .f32)
    (w1 : FVec Ideal S64x64 .f32) (b1 : FVec Ideal S64 .f32) (w2 : FVec Ideal S64x32 .f32) (b2 : FVec Ideal S32 .f32) :
    mulf (maximumf (addf (Host.dotGeneral dot_S800000x64_S64x32_S800000x32_1_0_0_1_n_n none (maximumf (addf (Host.dotGeneral dot_S800000x64_S64x64_S800000x64_1_0_0_1_n_n none (maximumf (addf (Host.dotGeneral dot_S800000x160_S160x64_S800000x64_1_0_0_1_n_n none (concatenate S800000x160 1 [⟨S800000x32, g0⟩, ⟨S800000x32, g1⟩, ⟨S800000x32, g2⟩, ⟨S800000x32, g3⟩, ⟨S800000x32, a4⟩] concatenates_S800000x32_S800000x32_S800000x32_S800000x32_S800000x32_S800000x160_d1) w0) (broadcastInDim S800000x64 ![0, 1] bcast_S1x64_S800000x64_0_1 (broadcastInDim S1x64 ![1] bcast_S64_S1x64_1 b0))) (broadcastInDim S800000x64 ![] bcast_S_S800000x64 (constant S_ .f32 0x00000000#32))) w1) (broadcastInDim S800000x64 ![0, 1] bcast_S1x64_S800000x64_0_1 (broadcastInDim S1x64 ![1] bcast_S64_S1x64_1 b1))) (broadcastInDim S800000x64 ![] bcast_S_S800000x64 (constant S_ .f32 0x00000000#32))) w2) (broadcastInDim S800000x32 ![0, 1] bcast_S1x32_S800000x32_0_1 (broadcastInDim S1x32 ![1] bcast_S32_S1x32_1 b2))) (broadcastInDim S800000x32 ![] bcast_S_S800000x32 (constant S_ .f32 0x00000000#32))) (subf g3 g2)
      = edgeFn g0 g1 g2 g3 a4 w0 (fun j => b0 (ix1 j)) w1 (fun j => b1 (ix1 j)) w2 (fun j => b2 (ix1 j)) :=
  funext fun i => (congrArg _ (eq_ix2 i)).trans (messages_at g0 g1 g2 g3 a4 w0 b0 w1 b1 w2 b2 (i 0) (i 1))

/-- The host's last two operations at node `p`, column `q`: the node update of row `p`. -/
theorem update_at (h agg : FVec Ideal S100000x32 .f32) (w : FVec Ideal S32x32 .f32) (p : Fin 100000) (q : Fin 32) :
    addf h (Host.dotGeneral dot_S100000x32_S32x32_S100000x32_1_0_0_1_n_n none agg w) (ix2 p q)
      = updated (fun k => h (ix2 p k)) (fun k => agg (ix2 p k)) (fun k j => w (ix2 k j)) q := by
  rw [addf_apply, dot3_plain]
  exact congrArg (h (ix2 p q) + ·) (LibHostRows.dotGeneral_plain_apply 100000 32 32 _ agg w p q)

/-- The host's last two operations are the node update. -/
theorem update_eq (h agg : FVec Ideal S100000x32 .f32) (w : FVec Ideal S32x32 .f32) :
    addf h (Host.dotGeneral dot_S100000x32_S32x32_S100000x32_1_0_0_1_n_n none agg w) = nodeFn h agg w :=
  funext fun i => (congrArg _ (eq_ix2 i)).trans (update_at h agg w (i 0) (i 1))

variable (m : (ℓ : Loc nD τ sig) → Buf (Elt Ideal) ℓ)

/-- The reference's result: the node update of the launch table, the scatter-add by receiver of the edges' messages,
    and the matrix. -/
theorem result_eq (c : Dev nD) :
    Cert.ReferenceIdeal.Value.res_main_v50 m c
      = nodeFn (m ((c.tc : Thread nD τ).loc main_arg0))
          (Host.scatterAdd scatter_S100000x32_S800000x1_S800000x32_1_0_0_1 (broadcastInDim S100000x32 ![] bcast_S_S100000x32 (constant S_ .f32 0x00000000#32))
            (broadcastInDim S800000x1 ![0] bcast_S800000_S800000x1_0 (m ((c.tc : Thread nD τ).loc main_arg4)))
            (edgeFn (Host.gather gather_S100000x32_S800000x1_S800000x32_1_0_n_n_0_1_132 (m ((c.tc : Thread nD τ).loc main_arg1)) (broadcastInDim S800000x1 ![0] bcast_S800000_S800000x1_0 (select (cmpi .slt (m ((c.tc : Thread nD τ).loc main_arg3)) (broadcastInDim S800000 ![] bcast_S_S800000 (constantI S_ 32 0#32))) (addi (m ((c.tc : Thread nD τ).loc main_arg3)) (broadcastInDim S800000 ![] bcast_S_S800000 (constantI S_ 32 100000#32))) (m ((c.tc : Thread nD τ).loc main_arg3))))) (Host.gather gather_S100000x32_S800000x1_S800000x32_1_0_n_n_0_1_132 (m ((c.tc : Thread nD τ).loc main_arg1)) (broadcastInDim S800000x1 ![0] bcast_S800000_S800000x1_0 (select (cmpi .slt (m ((c.tc : Thread nD τ).loc main_arg4)) (broadcastInDim S800000 ![] bcast_S_S800000 (constantI S_ 32 0#32))) (addi (m ((c.tc : Thread nD τ).loc main_arg4)) (broadcastInDim S800000 ![] bcast_S_S800000 (constantI S_ 32 100000#32))) (m ((c.tc : Thread nD τ).loc main_arg4))))) (Host.gather gather_S100000x32_S800000x1_S800000x32_1_0_n_n_0_1_132 (m ((c.tc : Thread nD τ).loc main_arg0)) (broadcastInDim S800000x1 ![0] bcast_S800000_S800000x1_0 (select (cmpi .slt (m ((c.tc : Thread nD τ).loc main_arg3)) (broadcastInDim S800000 ![] bcast_S_S800000 (constantI S_ 32 0#32))) (addi (m ((c.tc : Thread nD τ).loc main_arg3)) (broadcastInDim S800000 ![] bcast_S_S800000 (constantI S_ 32 100000#32))) (m ((c.tc : Thread nD τ).loc main_arg3))))) (Host.gather gather_S100000x32_S800000x1_S800000x32_1_0_n_n_0_1_132 (m ((c.tc : Thread nD τ).loc main_arg0)) (broadcastInDim S800000x1 ![0] bcast_S800000_S800000x1_0 (select (cmpi .slt (m ((c.tc : Thread nD τ).loc main_arg4)) (broadcastInDim S800000 ![] bcast_S_S800000 (constantI S_ 32 0#32))) (addi (m ((c.tc : Thread nD τ).loc main_arg4)) (broadcastInDim S800000 ![] bcast_S_S800000 (constantI S_ 32 100000#32))) (m ((c.tc : Thread nD τ).loc main_arg4)))))
              (m ((c.tc : Thread nD τ).loc main_arg2)) (m ((c.tc : Thread nD τ).loc main_arg5)) (fun j => m ((c.tc : Thread nD τ).loc main_arg6) (ix1 j))
              (m ((c.tc : Thread nD τ).loc main_arg7)) (fun j => m ((c.tc : Thread nD τ).loc main_arg8) (ix1 j))
              (m ((c.tc : Thread nD τ).loc main_arg9)) (fun j => m ((c.tc : Thread nD τ).loc main_arg10) (ix1 j))))
          (m ((c.tc : Thread nD τ).loc main_arg11)) := by
  unfold Cert.ReferenceIdeal.Value.res_main_v50
  rw [update_eq, messages_eq]

end Cert.ReferenceIdeal.RefValue

end
-- ==== Proof.lean ====
/-
  The certificate that a two-stage message-passing kernel computes what its reference computes.

  Both programs gather, for each of 800,000 edges, the sender's and the receiver's rows of two node tables, lay those
  four rows and the edge's own features side by side, run three dense layers with rectifiers on the 160 numbers, and
  multiply the 32 results entry by entry with the difference of two of the gathered rows; the messages are added up per
  receiving node, and each node's row becomes its old row plus its aggregated row times a square matrix. The reference
  does this on whole arrays on the host. The kernel does the per-edge stage in a pipelined region over a hundred blocks
  of 8,000 edges and the per-node stage in a second region over ten blocks of 10,000 nodes, the gathers and the
  scatter-add staying on the host between them.

  On the extended reals the two are the same sums of the same products: a block's row is an array's row, the matrix
  unit's product into zero and the host's `dot_general` are the same finite sum, and the gathers and the scatter-add are
  literally the same host operations applied to equal arguments. So each side's result is brought to one common form —
  the node update of the launch table, the scatter-add of the edges' messages, and the matrix — and the two forms agree
  once the reference's arguments are replaced by the kernel's. No law that needs finite entries is used.

  The frames of the two kernel programs are the generated ones; the reference's frame is its generated run with the
  result forgotten; the idealization rewrote nothing, so there is nothing to preserve.
-/
import proofs.«168394_j21114059227743_1_alg».proof.Defs
import proofs.«168394_j21114059227743_1_alg».proof.Proof.Gen.Kernel
import proofs.«168394_j21114059227743_1_alg».proof.Proof.Gen.Kernel.Skeleton
import proofs.«168394_j21114059227743_1_alg».proof.Proof.Gen.Kernel.Launch
import proofs.«168394_j21114059227743_1_alg».proof.Proof.Gen.Kernel.Points
import proofs.«168394_j21114059227743_1_alg».proof.Proof.Gen.Kernel.Frame
import proofs.«168394_j21114059227743_1_alg».proof.Proof.Gen.KernelIdeal
import proofs.«168394_j21114059227743_1_alg».proof.Proof.Gen.KernelIdeal.Skeleton
import proofs.«168394_j21114059227743_1_alg».proof.Proof.Gen.KernelIdeal.Launch
import proofs.«168394_j21114059227743_1_alg».proof.Proof.Gen.KernelIdeal.Points
import proofs.«168394_j21114059227743_1_alg».proof.Proof.Gen.KernelIdeal.Frame
import proofs.«168394_j21114059227743_1_alg».proof.Proof.Gen.ReferenceIdeal
import proofs.«168394_j21114059227743_1_alg».proof.Proof.Gen.Pre_finite_inputs
import proofs.«168394_j21114059227743_1_alg».proof.Proof.Gen.ReferenceIdeal.Run
import proofs.«168394_j21114059227743_1_alg».proof.Proof.KRun
import proofs.«168394_j21114059227743_1_alg».proof.Proof.Stretch
import proofs.«168394_j21114059227743_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

set_option maxHeartbeats 1600000 in
/-- From memories that agree on the twelve arguments both programs end with the node update of the launch table, the
    scatter-add by receiver of the edges' messages, and the matrix, in the result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W4 m ρ c (Proc.devRef .tc Cert.KernelIdeal.main_v35), Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  show Cert.ReferenceIdeal.Value.res_main_v50 m' c = Cert.KernelIdeal.Gen.W4 m ρ c (Proc.devRef .tc Cert.KernelIdeal.main_v35)
  rw [Cert.ReferenceIdeal.RefValue.result_eq, Cert.KernelIdeal.Whole.result_eq, a0, a1, a2, a3, a4, a5, a6, a7, a8, a9, a10, a11]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
